-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S2x1024 .f32) (main_arg7 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_v33

def fn {F : FTy → Type} [FloatOps F] (main_arg0 : FVec F S65536x256 .f32) (main_arg1 : FVec F S1024x256 .f32) (main_arg2 : FVec F S1024x1024 .f32) (main_arg3 : FVec F S1024 .f32) (main_arg4 : FVec F S1024x1024 .f32) (main_arg5 : FVec F S1024 .f32) (main_arg6 : FVec F S2x1024 .f32) (main_arg7 : FVec F S2 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S256x1024 : Shape := ⟨2, ![256, 1024]⟩
abbrev S_ : Shape := ⟨0, ![]⟩
abbrev S1x1024 : Shape := ⟨2, ![1, 1024]⟩
abbrev S1024x2 : Shape := ⟨2, ![1024, 2]⟩
abbrev S1x2 : Shape := ⟨2, ![1, 2]⟩
abbrev S65536x2 : Shape := ⟨2, ![65536, 2]⟩
abbrev S512x256 : Shape := ⟨2, ![512, 256]⟩
abbrev S512x2 : Shape := ⟨2, ![512, 2]⟩
abbrev S512 : Shape := ⟨1, ![512]⟩
abbrev S512x1 : Shape := ⟨2, ![512, 1]⟩
abbrev S512x1024 : Shape := ⟨2, ![512, 1024]⟩

abbrev nBuf : Space → Nat
  | .hbm => 24
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x1024, .f32⟩
  | .hbm, ⟨7, _⟩ => ⟨S2, .f32⟩
  | .hbm, ⟨8, _⟩ => ⟨S256x1024, .f32⟩
  | .hbm, ⟨9, _⟩ => ⟨S256x1024, .bf16⟩
  | .hbm, ⟨10, _⟩ => ⟨S1024x256, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x2, .f32⟩
  | .hbm, ⟨19, _⟩ => ⟨S1024x2, .bf16⟩
  | .hbm, ⟨20, _⟩ => ⟨S1x1024, .f32⟩
  | .hbm, ⟨21, _⟩ => ⟨S1x1024, .f32⟩
  | .hbm, ⟨22, _⟩ => ⟨S1x2, .f32⟩
  | .hbm, ⟨23, _⟩ => ⟨S65536x2, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2, .bf16⟩
  | .local _ .vmem, ⟨9, _⟩ => ⟨S1x2, .f32⟩
  | .local _ .vmem, ⟨10, _⟩ => ⟨S512x2, .f32⟩
  | .local _ .vmem, ⟨11, _⟩ => ⟨S512x2, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x256_S256x1024_1_0 : S1024x256.Transposes [1, 0] S256x1024
  bitsLt_bf16_f32 : FTy.bits .bf16 < FTy.bits .f32
  reducesTo_S1024x256_S1024_d1 : S1024x256.ReducesTo [1] S1024
  h_S_ : 0 < S_.numel
  shapeCasts_S1024_S1x1024 : S1024.ShapeCasts S1x1024
  transposes_S1024x1024_S1024x1024_1_0 : S1024x1024.Transposes [1, 0] S1024x1024
  transposes_S2x1024_S1024x2_1_0 : S2x1024.Transposes [1, 0] S1024x2
  shapeCasts_S2_S1x2 : S2.ShapeCasts S1x2
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  dot_S512x1024_S1024x2_S512x2_1_0_0_1_n_n_wf : DotDims.WF S512x1024 S1024x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S1024x2.size a
  hwx0_7 : ∀ i : grid0.Coords, EltTy.bits .bf16 = 32 ∨ (Rect.block (s := S1024x2) S1024x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2.size a ≤ S65536x2.size a
  hwx0_9 : ∀ i : grid0.Coords, EltTy.bits .f32 = 32 ∨ (Rect.block (s := S65536x2) S512x2.size (cc0_transform_9 i) (hinb0_9 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S512x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024x1024 : Shape := ⟨2, ![1024, 1024]⟩
abbrev S1024 : Shape := ⟨1, ![1024]⟩
abbrev S2x1024 : Shape := ⟨2, ![2, 1024]⟩
abbrev S2 : Shape := ⟨1, ![2]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1024 : Shape := ⟨2, ![65536, 1024]⟩
abbrev S65536x2 : Shape := ⟨2, ![65536, 2]⟩
abbrev S1x2 : Shape := ⟨2, ![1, 2]⟩

abbrev nBuf : Space → Nat
  | .hbm => 46
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x1024, .f32⟩
  | .hbm, ⟨7, _⟩ => ⟨S2, .f32⟩
  | .hbm, ⟨8, _⟩ => ⟨S65536x256, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S65536x2, .f32⟩
  | .hbm, ⟨43, _⟩ => ⟨S1x2, .f32⟩
  | .hbm, ⟨44, _⟩ => ⟨S65536x2, .f32⟩
  | .hbm, ⟨45, _⟩ => ⟨S65536x2, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x256_S1024x256_S65536x1024_1_1_0_0_n_n_wf : DotDims.WF S65536x256 S1024x256 S65536x1024 [1] [1] [0] [0] [] []
  dot_S65536x1024_S1024x1024_S65536x1024_1_1_0_0_n_n_wf : DotDims.WF S65536x1024 S1024x1024 S65536x1024 [1] [1] [0] [0] [] []
  dot_S65536x1024_S2x1024_S65536x2_1_1_0_0_n_n_wf : DotDims.WF S65536x1024 S2x1024 S65536x2 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf
def dot_S65536x1024_S2x1024_S65536x2_1_1_0_0_n_n : DotDims S65536x1024 S2x1024 S65536x2 where
  lhsContracting := [1]
  rhsContracting := [1]
  lhsNonContracting := [0]
  rhsNonContracting := [0]
  lhsBatch := []
  rhsBatch := []
  wf := dot_S65536x1024_S2x1024_S65536x2_1_1_0_0_n_n_wf

class Facts : Prop extends Facts₀ where

variable [Facts]
-- ==== Proof.Mlp.lean ====
/-
  The function both programs compute, written once over plain coordinates.

  A row `r` of the batch (256 features) is compared with each of the 1024 support vectors by the squared
  distance `‖r‖² + ‖sv_s‖² − 2·⟨r, sv_s⟩`; the radial feature is `exp (−γ · distance)` with `γ = 1/256`; two
  dense layers with a rectified linear unit and a two-column head follow. Every sum is a finite sum of
  extended reals, so its value does not depend on the order or grouping of its terms, and nothing below
  needs the terms to be finite. The three float words are kept as words: both programs print the same ones.
-/
import Idealize.ShloMosaic.PureOps.Ideal
import Idealize.ShloMosaic.PureOps.Ideal.Laws
import Idealize.ShloMosaic.Lib.ValueIdx

noncomputable section

namespace Cert.RbfMlp

open Idealize.ShloMosaic

/-- The word of `2.0`, of `−1/256` and of `0.0`, as extended reals. -/
abbrev twoWord : EReal := Ideal.ofBits .f32 0x40000000#32
abbrev negGammaWord : EReal := Ideal.ofBits .f32 0xBB800000#32
abbrev zeroWord : EReal := Ideal.ofBits .f32 0x00000000#32

/-- The zero word is the extended real `0`, so a sum started from it is the sum. -/
theorem zeroWord_add (a : EReal) : zeroWord + a = a := by
  show Ideal.ofBits .f32 0x00000000#32 + a = a
  rw [Ideal.ofBits_zero_f32, zero_add]

/-- `‖r‖²`: the sum of the squares of a row's 256 entries. -/
def sqNorm (r : Fin 256 → EReal) : EReal := ∑ f : Fin 256, r f * r f

/-- `⟨r, q⟩`: the inner product of two rows of 256 entries. -/
def rowDot (r q : Fin 256 → EReal) : EReal := ∑ f : Fin 256, r f * q f

/-- The radial feature of row `r` against support vector `s`, the support vectors' squared norms given as `n2`:
    `exp (−γ · ((‖r‖² + n2 s) − 2 · ⟨r, sv s⟩))`. -/
def feat (r : Fin 256 → EReal) (n2 : Fin 1024 → EReal) (sv : Fin 1024 → Fin 256 → EReal) (s : Fin 1024) : EReal :=
  Ideal.exp (negGammaWord * ((sqNorm r + n2 s) - twoWord * rowDot r (sv s)))

/-- A dense layer on 1024 inputs: output `o` is `∑ s, h s · W o s + b o` (the weight matrix is stored output-major). -/
def dense {n : Nat} (h : Fin 1024 → EReal) (W : Fin n → Fin 1024 → EReal) (b : Fin n → EReal) (o : Fin n) : EReal :=
  (∑ s : Fin 1024, h s * W o s) + b o

/-- A dense layer followed by the rectified linear unit `max · 0`. -/
def hiddenLayer (h : Fin 1024 → EReal) (W : Fin 1024 → Fin 1024 → EReal) (b : Fin 1024 → EReal) (o : Fin 1024) : EReal :=
  max (dense h W b o) zeroWord

/-- The two logits of one row: features, two hidden layers, the head. -/
def logits (r : Fin 256 → EReal) (n2 : Fin 1024 → EReal) (sv : Fin 1024 → Fin 256 → EReal)
    (W1 : Fin 1024 → Fin 1024 → EReal) (b1 : Fin 1024 → EReal) (W2 : Fin 1024 → Fin 1024 → EReal) (b2 : Fin 1024 → EReal)
    (Wh : Fin 2 → Fin 1024 → EReal) (bh : Fin 2 → EReal) (c : Fin 2) : EReal :=
  dense (hiddenLayer (hiddenLayer (feat r n2 sv) W1 b1) W2 b2) Wh bh c

/-- The whole result array as one function of the eight argument arrays: entry `(b, c)` is logit `c` of row `b` of
    `x`, the support vectors' squared norms computed from `sv` itself. -/
def result (x : (⟨2, ![65536, 256]⟩ : Shape).Idx → EReal) (sv : (⟨2, ![1024, 256]⟩ : Shape).Idx → EReal)
    (W1 : (⟨2, ![1024, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (Wh : (⟨2, ![2, 1024]⟩ : Shape).Idx → EReal) (bh : (⟨1, ![2]⟩ : Shape).Idx → EReal) :
    (⟨2, ![65536, 2]⟩ : Shape).Idx → EReal := fun i =>
  logits (fun f => x (ValueIdx.ix2 (i 0) f)) (fun s => sqNorm fun f => sv (ValueIdx.ix2 s f)) (fun s f => sv (ValueIdx.ix2 s f))
    (fun o s => W1 (ValueIdx.ix2 o s)) (fun o => b1 (ValueIdx.ix1 o)) (fun o s => W2 (ValueIdx.ix2 o s)) (fun o => b2 (ValueIdx.ix1 o))
    (fun c s => Wh (ValueIdx.ix2 c s)) (fun c => bh (ValueIdx.ix1 c)) (i 1)

end Cert.RbfMlp

end
-- ==== Proof.LibColumnLayout.lean ====
/-
  Two layout readings that a row sum kept as a column needs, beside the library's row forms.

  A vector of `a` entries cast to an `a × 1` column reads, at `(i, u)`, the vector at `i`; an `a × 1` column broadcast
  to `a × b` reads, at `(p, c)`, the column at `(p, 0)`. Both are statements about row-major positions and about
  which axes of the operand have extent one; nothing else of the shapes matters.
-/
import Idealize.ShloMosaic.Lib.ValueIdx
import Idealize.ShloMosaic.Lib.ValueLayout
import Idealize.ShloMosaic.Lib.Pipeline.Value

namespace Cert.ColumnLayout

open Idealize.ShloMosaic Idealize.ShloMosaic.ValueIdx

variable {α : Type}

/-- An `[a]` array cast to `[a, 1]` reads, at `(i, u)`, the operand at `i`, whatever the unit coordinate `u`: the two
    row-major positions are `i` and `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read
    at `0`, and the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Body.lean ====
/-
  What the kernel body computes on one block of 512 rows, entry by entry.

  The body's arithmetic is cut into the stages the mathematics has — the radial features, an affine layer, the
  rectifier, the head — each a vector expression over whole blocks, and the two generated payload terms are these stages
  composed (by unfolding). Each stage is then read at an entry `(p, n)` of its block: a format change is the identity on
  the extended reals, a matrix product into the zero accumulator is the sum over the contraction coordinate of the
  products, the lane sum of a row is the sum over its 256 coordinates, and the casts and broadcasts only re-address.
  Read so, the body's result at `(p, c)` is `RbfMlp.logits` of row `p` of the block of `x`, of the staged row of squared
  norms, and of the TRANSPOSED weight blocks the launch stages (entry `(k, n)` of a staged weight is entry `(n, k)` of
  the weight in the specification's output-major convention).
-/
import proofs.«180085_j65481071405965_1_alg».proof.Proof.Gen.KernelIdeal.Skeleton
import proofs.«180085_j65481071405965_1_alg».proof.Proof.Mlp
import proofs.«180085_j65481071405965_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.RbfMlp Cert.ColumnLayout

/-! ## The three matrix products at an entry -/

theorem lhsA_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhsA_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhsA_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhsA_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The 512 × 256 by 256 × 1024 product into the zero accumulator, at `(p, n)`: `∑ k, a (p, k) · b (k, n)`. -/
theorem matmulA_apply (a : FVec Ideal S512x256 .bf16) (b : FVec Ideal S256x1024 .bf16) (p : Fin 512) (n : Fin 1024) :
    matmul dot_S512x256_S256x1024_S512x1024_1_0_0_1_n_n none a b (constant (F := Ideal) S512x1024 .f32 0x00000000#32) (ix2 p n)
      = ∑ k : Fin 256, a (ix2 p k) * b (ix2 k n) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p n) ((contrEquiv1 dot_S512x256_S256x1024_S512x1024_1_0_0_1_n_n 256 rfl rfl).symm k) = ix2 p k := funext fun ax => Fin.ext (by
    match ax with
    | ⟨0, _⟩ => exact lhsA_0 _ _
    | ⟨1, _⟩ => exact (lhsA_1 _ _).trans hk)
  have er : dot_S512x256_S256x1024_S512x1024_1_0_0_1_n_n.rhsIdx (ix2 p n) ((contrEquiv1 dot_S512x256_S256x1024_S512x1024_1_0_0_1_n_n 256 rfl rfl).symm k) = ix2 k n := funext fun ax => Fin.ext (by
    match ax with
    | ⟨0, _⟩ => exact (rhsA_0 _ _).trans hk
    | ⟨1, _⟩ => exact rhsA_1 _ _)
  rw [el, er]

theorem lhsB_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsB_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsB_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsB_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The 512 × 1024 by 1024 × 1024 product into the zero accumulator, at `(p, n)`: `∑ k, a (p, k) · b (k, n)`. -/
theorem matmulB_apply (a : FVec Ideal S512x1024 .bf16) (b : FVec Ideal S1024x1024 .bf16) (p : Fin 512) (n : Fin 1024) :
    matmul dot_S512x1024_S1024x1024_S512x1024_1_0_0_1_n_n none a b (constant (F := Ideal) S512x1024 .f32 0x00000000#32) (ix2 p n)
      = ∑ k : Fin 1024, a (ix2 p k) * b (ix2 k n) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k := funext fun ax => Fin.ext (by
    match ax with
    | ⟨0, _⟩ => exact lhsB_0 _ _
    | ⟨1, _⟩ => exact (lhsB_1 _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n := funext fun ax => Fin.ext (by
    match ax with
    | ⟨0, _⟩ => exact (rhsB_0 _ _).trans hk
    | ⟨1, _⟩ => exact rhsB_1 _ _)
  rw [el, er]

theorem lhsC_0 (i : S512x2.Idx) (q : dot_S512x1024_S1024x2_S512x2_1_0_0_1_n_n.contr.Idx) :
    (dot_S512x1024_S1024x2_S512x2_1_0_0_1_n_n.lhsIdx i q 0).val = (i 0).val := by
  unfold DotDims.lhsIdx
  rw [dif_neg (show ¬(0 : Fin S512x1024.rank) ∈ dot_S512x1024_S1024x2_S512x2_1_0_0_1_n_n.lhsBatch by decide), dif_pos (show (0 : Fin S512x1024.rank) ∈ dot_S512x1024_S1024x2_S512x2_1_0_0_1_n_n.lhsNonContracting by decide)]
  rfl
theorem lhsC_1 (i : S512x2.Idx) (q : dot_S512x1024_S1024x2_S512x2_1_0_0_1_n_n.contr.Idx) :
    (dot_S512x1024_S1024x2_S512x2_1_0_0_1_n_n.lhsIdx i q 1).val = (q ⟨0, by decide⟩).val :=
  dot_S512x1024_S1024x2_S512x2_1_0_0_1_n_n.lhsIdx_val_of_single rfl i q
theorem rhsC_0 (i : S512x2.Idx) (q : dot_S512x1024_S1024x2_S512x2_1_0_0_1_n_n.contr.Idx) :
    (dot_S512x1024_S1024x2_S512x2_1_0_0_1_n_n.rhsIdx i q 0).val = (q ⟨0, by decide⟩).val :=
  dot_S512x1024_S1024x2_S512x2_1_0_0_1_n_n.rhsIdx_val_of_single rfl i q
theorem rhsC_1 (i : S512x2.Idx) (q : dot_S512x1024_S1024x2_S512x2_1_0_0_1_n_n.contr.Idx) :
    (dot_S512x1024_S1024x2_S512x2_1_0_0_1_n_n.rhsIdx i q 1).val = (i 1).val := by
  unfold DotDims.rhsIdx
  rw [dif_neg (show ¬(1 : Fin S1024x2.rank) ∈ dot_S512x1024_S1024x2_S512x2_1_0_0_1_n_n.rhsBatch by decide), dif_pos (show (1 : Fin S1024x2.rank) ∈ dot_S512x1024_S1024x2_S512x2_1_0_0_1_n_n.rhsNonContracting by decide)]
  rfl

/-- The 512 × 1024 by 1024 × 2 product into the zero accumulator, at `(p, n)`: `∑ k, a (p, k) · b (k, n)`. -/
theorem matmulC_apply (a : FVec Ideal S512x1024 .bf16) (b : FVec Ideal S1024x2 .bf16) (p : Fin 512) (n : Fin 2) :
    matmul dot_S512x1024_S1024x2_S512x2_1_0_0_1_n_n none a b (constant (F := Ideal) S512x2 .f32 0x00000000#32) (ix2 p n)
      = ∑ k : Fin 1024, a (ix2 p k) * b (ix2 k n) := by
  simp only [matmul]
  rw [Ideal.matmul_constant_zero_apply, ← Equiv.sum_comp (contrEquiv1 dot_S512x1024_S1024x2_S512x2_1_0_0_1_n_n 1024 rfl rfl).symm]
  refine Finset.sum_congr rfl fun k _ => ?_
  have hk := contrEquiv1_symm_val dot_S512x1024_S1024x2_S512x2_1_0_0_1_n_n 1024 rfl rfl k
  have el : dot_S512x1024_S1024x2_S512x2_1_0_0_1_n_n.lhsIdx (ix2 p n) ((contrEquiv1 dot_S512x1024_S1024x2_S512x2_1_0_0_1_n_n 1024 rfl rfl).symm k) = ix2 p k := funext fun ax => Fin.ext (by
    match ax with
    | ⟨0, _⟩ => exact lhsC_0 _ _
    | ⟨1, _⟩ => exact (lhsC_1 _ _).trans hk)
  have er : dot_S512x1024_S1024x2_S512x2_1_0_0_1_n_n.rhsIdx (ix2 p n) ((contrEquiv1 dot_S512x1024_S1024x2_S512x2_1_0_0_1_n_n 1024 rfl rfl).symm k) = ix2 k n := funext fun ax => Fin.ext (by
    match ax with
    | ⟨0, _⟩ => exact (rhsC_0 _ _).trans hk
    | ⟨1, _⟩ => exact rhsC_1 _ _)
  rw [el, er]

/-! ## The lane sum of a row -/

/-- The sum over the 256 lanes of row `p` of a 512 × 256 block, from the zero word. -/
theorem rowSum_apply (v : FVec Ideal S512x256 .f32) (p : Fin 512) :
    multiReduction .add [1] S512 v 0x00000000#32 reduces_S512x256_S512 (.inl rfl) rfl (ix1 p) = ∑ f : Fin 256, v (ix2 p f) := by
  refine (Ideal.multiReduction_add_single v 0x00000000#32 reduces_S512x256_S512 (.inl rfl) rfl (ix1 p)).trans ?_
  refine Finset.sum_congr rfl fun k _ => ?_
  exact congrArg v (funext fun ax => Fin.ext (by match ax with | ⟨0, _⟩ => rfl | ⟨1, _⟩ => rfl))

/-- The exponential of a vector at an entry. -/
theorem exp_apply {s : Shape} {φ : FTy} (a : FVec Ideal s φ) (i : s.Idx) : exp a i = Ideal.exp (a i) := rfl

/-! ## The stages -/

/-- The radial features of a block: `exp (−γ · ((‖x_p‖² + n2_s) − 2 · (x · svT)_{p s}))`, the row's squared norm a lane
    sum kept as a column, the staged squared norms a row, both broadcast over the block. -/
def radial (v0 : FVec Ideal S512x256 .f32) (v5 : FVec Ideal S256x1024 .bf16) (v8 : FVec Ideal S1x1024 .f32) : FVec Ideal S512x1024 .f32 :=
  exp (mulf (broadcast S512x1024 (Scalar.ofBits .f32 0xBB800000#32))
    (subf
      (addf
        (broadcastTo S512x1024 (shapeCast S512x1 (multiReduction .add [1] S512 (mulf v0 v0) 0x00000000#32 reduces_S512x256_S512 (.inl rfl) rfl) shapeCasts_S512_S512x1) broadcasts_S512x1_S512x1024)
        (broadcastTo S512x1024 (shapeCast S1x1024 v8 shapeCasts_S1x1024_S1x1024) broadcasts_S1x1024_S512x1024))
      (mulf (broadcast S512x1024 (Scalar.ofBits .f32 0x40000000#32))
        (matmul dot_S512x256_S256x1024_S512x1024_1_0_0_1_n_n none (truncf .bf16 v0 bitsLt_bf16_f32) (shapeCast S256x1024 v5 shapeCasts_S256x1024_S256x1024) (constant S512x1024 .f32 0x00000000#32)))))

/-- An affine layer on a block: the product with the staged (transposed) weight block plus the bias row. -/
def affine (k : FVec Ideal S512x1024 .f32) (w : FVec Ideal S1024x1024 .bf16) (b : FVec Ideal S1x1024 .f32) : FVec Ideal S512x1024 .f32 :=
  addf (matmul dot_S512x1024_S1024x1024_S512x1024_1_0_0_1_n_n none (truncf .bf16 k bitsLt_bf16_f32) (shapeCast S1024x1024 w shapeCasts_S1024x1024_S1024x1024) (constant S512x1024 .f32 0x00000000#32))
    (broadcastTo S512x1024 (shapeCast S1x1024 b shapeCasts_S1x1024_S1x1024) broadcasts_S1x1024_S512x1024)

/-- The rectifier on a block: the maximum with the splat of a scalar (the zero word, where the body applies it). -/
def rectify (h : FVec Ideal S512x1024 .f32) (z : Ideal .f32) : FVec Ideal S512x1024 .f32 :=
  maximumf h (broadcast S512x1024 z)

/-- The head on a block: the product with the staged 1024 × 2 weight block plus the bias row. -/
def head (h : FVec Ideal S512x1024 .f32) (w : FVec Ideal S1024x2 .bf16) (b : FVec Ideal S1x2 .f32) : FVec Ideal S512x2 .f32 :=
  addf (matmul dot_S512x1024_S1024x2_S512x2_1_0_0_1_n_n none (truncf .bf16 h bitsLt_bf16_f32) (shapeCast S1024x2 w shapeCasts_S1024x2_S1024x2) (constant S512x2 .f32 0x00000000#32))
    (broadcastTo S512x2 (shapeCast S1x2 b shapeCasts_S1x2_S1x2) broadcasts_S1x2_S512x2)

/-- The first payload is the second affine layer of the rectified first one of the radial features. -/
theorem pay2_eq (v0 : FVec Ideal S512x256 .f32) (v5 : FVec Ideal S256x1024 .bf16) (v8 : FVec Ideal S1x1024 .f32)
    (v20 : FVec Ideal S1024x1024 .bf16) (v23 : FVec Ideal S1x1024 .f32) (v30 : FVec Ideal S1024x1024 .bf16) (v33 : FVec Ideal S1x1024 .f32) :
    k0_pay2 (F := Ideal) v0 v5 v8 v20 v23 v30 v33
      = affine (rectify (affine (radial v0 v5 v8) v20 v23) (Scalar.ofBits .f32 0x00000000#32)) v30 v33 := rfl

/-- The stored payload is the head of the rectified value the first payload hands on. -/
theorem pay1_eq (v36 : FVec Ideal S512x1024 .f32) (z : Ideal .f32) (v40 : FVec Ideal S1024x2 .bf16) (v43 : FVec Ideal S1x2 .f32) :
    k0_pay1 (F := Ideal) v36 z v40 v43 = head (rectify v36 z) v40 v43 := rfl

/-! ## The stages at an entry -/

theorem radial_apply (v0 : FVec Ideal S512x256 .f32) (v5 : FVec Ideal S256x1024 .bf16) (v8 : FVec Ideal S1x1024 .f32) (p : Fin 512) (s : Fin 1024) :
    radial v0 v5 v8 (ix2 p s)
      = feat (fun f => v0 (ix2 p f)) (fun s => v8 (ix2 (0 : Fin 1) s)) (fun s f => v5 (ix2 f s)) s := by
  unfold radial
  simp only [exp_apply, mulf_apply, subf_apply, addf_apply, broadcast_apply]
  rw [broadcastTo_a1_ab_apply, shapeCast_a_a1_apply, rowSum_apply, broadcastTo_1b_ab_apply, shapeCast_self, shapeCast_self, matmulA_apply]
  rfl

theorem affine_apply (k : FVec Ideal S512x1024 .f32) (w : FVec Ideal S1024x1024 .bf16) (b : FVec Ideal S1x1024 .f32) (p : Fin 512) (o : Fin 1024) :
    affine k w b (ix2 p o)
      = dense (fun s => k (ix2 p s)) (fun o s => w (ix2 s o)) (fun o => b (ix2 (0 : Fin 1) o)) o := by
  unfold affine
  rw [addf_apply, shapeCast_self, shapeCast_self, matmulB_apply, broadcastTo_1b_ab_apply]
  rfl

theorem rectify_affine_apply (k : FVec Ideal S512x1024 .f32) (w : FVec Ideal S1024x1024 .bf16) (b : FVec Ideal S1x1024 .f32) (p : Fin 512) (o : Fin 1024) :
    rectify (affine k w b) (Scalar.ofBits .f32 0x00000000#32) (ix2 p o)
      = hiddenLayer (fun s => k (ix2 p s)) (fun o s => w (ix2 s o)) (fun o => b (ix2 (0 : Fin 1) o)) o := by
  unfold rectify hiddenLayer
  rw [maximumf_apply, broadcast_apply, affine_apply]
  rfl

theorem head_apply (h : FVec Ideal S512x1024 .f32) (w : FVec Ideal S1024x2 .bf16) (b : FVec Ideal S1x2 .f32) (p : Fin 512) (c : Fin 2) :
    head h w b (ix2 p c)
      = dense (fun s => h (ix2 p s)) (fun c s => w (ix2 s c)) (fun c => b (ix2 (0 : Fin 1) c)) c := by
  unfold head
  rw [addf_apply, shapeCast_self, shapeCast_self, matmulC_apply, broadcastTo_1b_ab_apply]
  rfl

/-! ## The body's result at an entry -/

/-- Entry `(p, c)` of what the body stores is logit `c` of row `p` of the block of `x`. -/
theorem body_apply (x0 : FVec Ideal S512x256 .f32) (x1 : FVec Ideal S256x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x2 .bf16) (x8 : FVec Ideal S1x2 .f32) (p : Fin 512) (c : Fin 2) :
    k0_pay1 (F := Ideal) (k0_pay2 (F := Ideal) x0 x1 x2 x3 x4 x5 x6) (Scalar.ofBits .f32 0x00000000#32) x7 x8 (ix2 p c)
      = logits (fun f => x0 (ix2 p f)) (fun s => x2 (ix2 (0 : Fin 1) s)) (fun s f => x1 (ix2 f s))
          (fun o s => x3 (ix2 s o)) (fun o => x4 (ix2 (0 : Fin 1) o)) (fun o s => x5 (ix2 s o)) (fun o => x6 (ix2 (0 : Fin 1) o))
          (fun c s => x7 (ix2 s c)) (fun c => x8 (ix2 (0 : Fin 1) c)) c := by
  rw [pay1_eq, pay2_eq, head_apply]
  simp only [rectify_affine_apply, radial_apply]
  rfl

end Cert.KernelIdeal.Body

end
-- ==== Proof.Staged.lean ====
/-
  What the launch stages for the kernel, entry by entry.

  Before the region the program re-lays its weights: each weight matrix is transposed and changed to the 16-bit format
  (the identity on the extended reals), each bias vector becomes a one-row matrix, and the support vectors' squared
  norms are computed once as a row: `0 + ∑_f sv(s, f)²` from the zero word. So entry `(k, n)` of a staged weight is entry
  `(n, k)` of the weight, entry `(0, n)` of a staged bias is entry `n` of the bias, and entry `(0, s)` of the staged norms is
  `‖sv_s‖²`. The first argument is staged as it is.
-/
import proofs.«180085_j65481071405965_1_alg».proof.Proof.Gen.KernelIdeal.Frame
import proofs.«180085_j65481071405965_1_alg».proof.Proof.Mlp
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.RbfMlp

variable (m : (ℓ : Loc nD τ sig) → Buf (Elt Ideal) ℓ)

/-! ## The staged arrays as terms of the arguments -/

theorem svT_eq (c : Dev nD) :
    (V m c main_v1 : S256x1024.Idx → EReal)
      = truncf (F := Ideal) .bf16 (transpose S256x1024 [1, 0] (m ((c : Thread nD τ).loc main_arg1)) transposes_S1024x256_S256x1024_1_0) bitsLt_bf16_f32 := by
  dsimp only [Gen.V, Gen.hostOps0]; after_results <;> rfl

theorem n2_eq (c : Dev nD) :
    (V m c main_v4 : S1x1024.Idx → EReal)
      = shapeCast S1x1024 (Host.reduceAdd (F := Ideal) (mulf (m ((c : Thread nD τ).loc main_arg1)) (m ((c : Thread nD τ).loc main_arg1))) (constant (F := Ideal) S_ .f32 0x00000000#32) reducesTo_S1024x256_S1024_d1 h_S_) shapeCasts_S1024_S1x1024 := by
  dsimp only [Gen.V, Gen.hostOps0]; after_results <;> rfl

theorem W1T_eq (c : Dev nD) :
    (V m c main_v6 : S1024x1024.Idx → EReal)
      = truncf (F := Ideal) .bf16 (transpose S1024x1024 [1, 0] (m ((c : Thread nD τ).loc main_arg2)) transposes_S1024x1024_S1024x1024_1_0) bitsLt_bf16_f32 := by
  dsimp only [Gen.V, Gen.hostOps0]; after_results <;> rfl

theorem W2T_eq (c : Dev nD) :
    (V m c main_v8 : S1024x1024.Idx → EReal)
      = truncf (F := Ideal) .bf16 (transpose S1024x1024 [1, 0] (m ((c : Thread nD τ).loc main_arg4)) transposes_S1024x1024_S1024x1024_1_0) bitsLt_bf16_f32 := by
  dsimp only [Gen.V, Gen.hostOps0]; after_results <;> rfl

theorem WhT_eq (c : Dev nD) :
    (V m c main_v10 : S1024x2.Idx → EReal)
      = truncf (F := Ideal) .bf16 (transpose S1024x2 [1, 0] (m ((c : Thread nD τ).loc main_arg6)) transposes_S2x1024_S1024x2_1_0) bitsLt_bf16_f32 := by
  dsimp only [Gen.V, Gen.hostOps0]; after_results <;> rfl

theorem b1_eq (c : Dev nD) :
    (V m c main_v11 : S1x1024.Idx → EReal) = shapeCast S1x1024 (m ((c : Thread nD τ).loc main_arg3)) shapeCasts_S1024_S1x1024 := by
  dsimp only [Gen.V, Gen.hostOps0]; after_results <;> rfl

theorem b2_eq (c : Dev nD) :
    (V m c main_v12 : S1x1024.Idx → EReal) = shapeCast S1x1024 (m ((c : Thread nD τ).loc main_arg5)) shapeCasts_S1024_S1x1024 := by
  dsimp only [Gen.V, Gen.hostOps0]; after_results <;> rfl

theorem bh_eq (c : Dev nD) :
    (V m c main_v13 : S1x2.Idx → EReal) = shapeCast S1x2 (m ((c : Thread nD τ).loc main_arg7)) shapeCasts_S2_S1x2 := by
  dsimp only [Gen.V, Gen.hostOps0]; after_results <;> rfl

/-! ## The staged arrays at an entry -/

/-- The staged support vectors: entry `(f, s)` is feature `f` of support vector `s`. -/
theorem svT_apply (c : Dev nD) (f : Fin 256) (s : Fin 1024) :
    V m c main_v1 (ix2 f s) = (m ((c : Thread nD τ).loc main_arg1)) (ix2 s f) := by
  rw [svT_eq]
  exact transpose_ix2_apply _ transposes_S1024x256_S256x1024_1_0 f s

theorem W1T_apply (c : Dev nD) (s o : Fin 1024) :
    V m c main_v6 (ix2 s o) = (m ((c : Thread nD τ).loc main_arg2)) (ix2 o s) := by
  rw [W1T_eq]
  exact transpose_ix2_apply _ transposes_S1024x1024_S1024x1024_1_0 s o

theorem W2T_apply (c : Dev nD) (s o : Fin 1024) :
    V m c main_v8 (ix2 s o) = (m ((c : Thread nD τ).loc main_arg4)) (ix2 o s) := by
  rw [W2T_eq]
  exact transpose_ix2_apply _ transposes_S1024x1024_S1024x1024_1_0 s o

theorem WhT_apply (c : Dev nD) (s : Fin 1024) (k : Fin 2) :
    V m c main_v10 (ix2 s k) = (m ((c : Thread nD τ).loc main_arg6)) (ix2 k s) := by
  rw [WhT_eq]
  exact transpose_ix2_apply _ transposes_S2x1024_S1024x2_1_0 s k

theorem b1_apply (c : Dev nD) (o : Fin 1024) :
    V m c main_v11 (ix2 (0 : Fin 1) o) = (m ((c : Thread nD τ).loc main_arg3)) (ix1 o) := by
  rw [b1_eq]
  exact shapeCast_a_1a_apply _ shapeCasts_S1024_S1x1024 0 o

theorem b2_apply (c : Dev nD) (o : Fin 1024) :
    V m c main_v12 (ix2 (0 : Fin 1) o) = (m ((c : Thread nD τ).loc main_arg5)) (ix1 o) := by
  rw [b2_eq]
  exact shapeCast_a_1a_apply _ shapeCasts_S1024_S1x1024 0 o

theorem bh_apply (c : Dev nD) (k : Fin 2) :
    V m c main_v13 (ix2 (0 : Fin 1) k) = (m ((c : Thread nD τ).loc main_arg7)) (ix1 k) := by
  rw [bh_eq]
  exact shapeCast_a_1a_apply _ shapeCasts_S2_S1x2 0 k

/-- The host's sum of the squares of row `s` of a 1024 × 256 array, from the zero word, is the plain sum. -/
theorem rowSquares_apply (a : FVec Ideal S1024x256 .f32) (s : Fin 1024) :
    Host.reduceAdd (F := Ideal) (mulf a a) (constant (F := Ideal) S_ .f32 0x00000000#32) reducesTo_S1024x256_S1024_d1 h_S_ (ix1 s)
      = sqNorm fun f => a (ix2 s f) := by
  simp only [Host.reduceAdd, Ideal.hostReduceAdd_def]
  rw [Ideal.hostReduceAdd_single reducesTo_S1024x256_S1024_d1 (by decide)]
  refine (zeroWord_add _).trans ?_
  unfold sqNorm
  refine Finset.sum_congr rfl fun k _ => ?_
  have e : (Shape.Reduces.lift (by decide : S1024x256.Reduces [1] S1024) (ix1 s) k) = ix2 s k :=
    funext fun ax => Fin.ext (by match ax with | ⟨0, _⟩ => rfl | ⟨1, _⟩ => rfl)
  show a _ * a _ = _
  rw [e]
  rfl

/-- The staged squared norms: entry `(0, s)` is `‖sv_s‖²`. -/
theorem n2_apply (c : Dev nD) (s : Fin 1024) :
    V m c main_v4 (ix2 (0 : Fin 1) s) = sqNorm fun f => (m ((c : Thread nD τ).loc main_arg1)) (ix2 s f) := by
  rw [n2_eq]
  exact (shapeCast_a_1a_apply _ shapeCasts_S1024_S1x1024 0 s).trans (rowSquares_apply _ s)

end Cert.KernelIdeal.Staged

end
-- ==== Proof.Whole.lean ====
/-
  From the blocks to the array: the kernel's result array is the specification.

  The grid has 128 points; point `t` reads rows `512 t … 512 t + 511` of `x` and the whole of every staged array (their
  block index never moves), and writes rows `512 t … 512 t + 511` of the result. By the body's reading, row `p` of what point
  `t` writes is the two logits of row `512 t + p` of `x` against the staged arrays, which are the transposed weights, the
  bias rows and the support vectors' squared norms: that is block `t` of `RbfMlp.result` of the arguments. Row `r` of the
  result lies in the block of point `r / 512`, so the 128 blocks cover the array and it ends holding `RbfMlp.result`.
-/
import proofs.«180085_j65481071405965_1_alg».proof.Proof.Gen.KernelIdeal.Value
import proofs.«180085_j65481071405965_1_alg».proof.Proof.Body
import proofs.«180085_j65481071405965_1_alg».proof.Proof.Staged

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RbfMlp

variable (m : (ℓ : Loc nD τ sig) → Buf (Elt Ideal) ℓ) (ρ : Dev nD → PrngReg)

theorem hz : (![0, 0] : Fin 2 → Nat) = fun _ => 0 := funext fun a => by fin_cases a <;> rfl

/-- The specification at core `c`'s launch contents of the eight arguments. -/
abbrev spec (c : Dev nD) : S65536x2.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ## The index maps over the grid -/

/-- The block of `x` and the block of the result move together, one block a point, along the rows only. -/
theorem moving_facts : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Every staged array is one block, at block index `(0, 0)` at every point. -/
theorem resident_facts : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks a point reads -/

/-- Row `p` of point `t`'s block of `x` is row `512 t + p` of `x` as launched. -/
theorem blk0 (c : Dev nD) (t : Fin cfg0.N) (p : Fin 512) (f : Fin 256) (b : Fin 65536) (hb : b.val = t.val * 512 + p.val) :
    iblk m c 0 t (ix2 p f) = (m ((c : Thread nD τ).loc main_arg0)) (ix2 b f) := by
  obtain ⟨e00, e01, -, -⟩ := moving_facts t
  show V m c main_arg0 (((cfg0.win 0).blk t).view.emb (ix2 p f)) = _
  rw [V_main_arg0]
  refine congrArg _ (funext fun ax => Fin.ext ?_)
  match ax with
  | ⟨0, _⟩ => show win0_0.index t (0 : Fin 2) * 512 + 1 * p.val = b.val; omega
  | ⟨1, _⟩ => show win0_0.index t (1 : Fin 2) * 256 + 1 * f.val = f.val; omega

theorem blk1 (c : Dev nD) (t : Fin cfg0.N) (a : Fin 256) (b : Fin 1024) :
    iblk m c 1 t (ix2 a b) = V m c main_v1 (ix2 a b) := by
  have h0 : win0_1.index t (0 : Fin 2) = 0 := (resident_facts t).1
  have h1 : win0_1.index t (1 : Fin 2) = 0 := (resident_facts t).2.1
  show V m c main_v1 (((cfg0.win 1).blk t).view.emb (ix2 a b)) = _
  refine congrArg _ (funext fun ax => Fin.ext ?_)
  match ax with
  | ⟨0, _⟩ => show win0_1.index t (0 : Fin 2) * 256 + 1 * a.val = a.val; omega
  | ⟨1, _⟩ => show win0_1.index t (1 : Fin 2) * 1024 + 1 * b.val = b.val; omega

theorem blk2 (c : Dev nD) (t : Fin cfg0.N) (a : Fin 1) (b : Fin 1024) :
    iblk m c 2 t (ix2 a b) = V m c main_v4 (ix2 a b) := by
  have h0 : win0_2.index t (0 : Fin 2) = 0 := (resident_facts t).2.2.1
  have h1 : win0_2.index t (1 : Fin 2) = 0 := (resident_facts t).2.2.2.1
  show V m c main_v4 (((cfg0.win 2).blk t).view.emb (ix2 a b)) = _
  refine congrArg _ (funext fun ax => Fin.ext ?_)
  match ax with
  | ⟨0, _⟩ => show win0_2.index t (0 : Fin 2) * 1 + 1 * a.val = a.val; omega
  | ⟨1, _⟩ => show win0_2.index t (1 : Fin 2) * 1024 + 1 * b.val = b.val; omega

theorem blk3 (c : Dev nD) (t : Fin cfg0.N) (a : Fin 1024) (b : Fin 1024) :
    iblk m c 3 t (ix2 a b) = V m c main_v6 (ix2 a b) := by
  have h0 : win0_3.index t (0 : Fin 2) = 0 := (resident_facts t).2.2.2.2.1
  have h1 : win0_3.index t (1 : Fin 2) = 0 := (resident_facts t).2.2.2.2.2.1
  show V m c main_v6 (((cfg0.win 3).blk t).view.emb (ix2 a b)) = _
  refine congrArg _ (funext fun ax => Fin.ext ?_)
  match ax with
  | ⟨0, _⟩ => show win0_3.index t (0 : Fin 2) * 1024 + 1 * a.val = a.val; omega
  | ⟨1, _⟩ => show win0_3.index t (1 : Fin 2) * 1024 + 1 * b.val = b.val; omega

theorem blk4 (c : Dev nD) (t : Fin cfg0.N) (a : Fin 1) (b : Fin 1024) :
    iblk m c 4 t (ix2 a b) = V m c main_v11 (ix2 a b) := by
  have h0 : win0_4.index t (0 : Fin 2) = 0 := (resident_facts t).2.2.2.2.2.2.1
  have h1 : win0_4.index t (1 : Fin 2) = 0 := (resident_facts t).2.2.2.2.2.2.2.1
  show V m c main_v11 (((cfg0.win 4).blk t).view.emb (ix2 a b)) = _
  refine congrArg _ (funext fun ax => Fin.ext ?_)
  match ax with
  | ⟨0, _⟩ => show win0_4.index t (0 : Fin 2) * 1 + 1 * a.val = a.val; omega
  | ⟨1, _⟩ => show win0_4.index t (1 : Fin 2) * 1024 + 1 * b.val = b.val; omega

theorem blk5 (c : Dev nD) (t : Fin cfg0.N) (a : Fin 1024) (b : Fin 1024) :
    iblk m c 5 t (ix2 a b) = V m c main_v8 (ix2 a b) := by
  have h0 : win0_5.index t (0 : Fin 2) = 0 := (resident_facts t).2.2.2.2.2.2.2.2.1
  have h1 : win0_5.index t (1 : Fin 2) = 0 := (resident_facts t).2.2.2.2.2.2.2.2.2.1
  show V m c main_v8 (((cfg0.win 5).blk t).view.emb (ix2 a b)) = _
  refine congrArg _ (funext fun ax => Fin.ext ?_)
  match ax with
  | ⟨0, _⟩ => show win0_5.index t (0 : Fin 2) * 1024 + 1 * a.val = a.val; omega
  | ⟨1, _⟩ => show win0_5.index t (1 : Fin 2) * 1024 + 1 * b.val = b.val; omega

theorem blk6 (c : Dev nD) (t : Fin cfg0.N) (a : Fin 1) (b : Fin 1024) :
    iblk m c 6 t (ix2 a b) = V m c main_v12 (ix2 a b) := by
  have h0 : win0_6.index t (0 : Fin 2) = 0 := (resident_facts t).2.2.2.2.2.2.2.2.2.2.1
  have h1 : win0_6.index t (1 : Fin 2) = 0 := (resident_facts t).2.2.2.2.2.2.2.2.2.2.2.1
  show V m c main_v12 (((cfg0.win 6).blk t).view.emb (ix2 a b)) = _
  refine congrArg _ (funext fun ax => Fin.ext ?_)
  match ax with
  | ⟨0, _⟩ => show win0_6.index t (0 : Fin 2) * 1 + 1 * a.val = a.val; omega
  | ⟨1, _⟩ => show win0_6.index t (1 : Fin 2) * 1024 + 1 * b.val = b.val; omega

theorem blk7 (c : Dev nD) (t : Fin cfg0.N) (a : Fin 1024) (b : Fin 2) :
    iblk m c 7 t (ix2 a b) = V m c main_v10 (ix2 a b) := by
  have h0 : win0_7.index t (0 : Fin 2) = 0 := (resident_facts t).2.2.2.2.2.2.2.2.2.2.2.2.1
  have h1 : win0_7.index t (1 : Fin 2) = 0 := (resident_facts t).2.2.2.2.2.2.2.2.2.2.2.2.2.1
  show V m c main_v10 (((cfg0.win 7).blk t).view.emb (ix2 a b)) = _
  refine congrArg _ (funext fun ax => Fin.ext ?_)
  match ax with
  | ⟨0, _⟩ => show win0_7.index t (0 : Fin 2) * 1024 + 1 * a.val = a.val; omega
  | ⟨1, _⟩ => show win0_7.index t (1 : Fin 2) * 2 + 1 * b.val = b.val; omega

theorem blk8 (c : Dev nD) (t : Fin cfg0.N) (a : Fin 1) (b : Fin 2) :
    iblk m c 8 t (ix2 a b) = V m c main_v13 (ix2 a b) := by
  have h0 : win0_8.index t (0 : Fin 2) = 0 := (resident_facts t).2.2.2.2.2.2.2.2.2.2.2.2.2.2.1
  have h1 : win0_8.index t (1 : Fin 2) = 0 := (resident_facts t).2.2.2.2.2.2.2.2.2.2.2.2.2.2.2
  show V m c main_v13 (((cfg0.win 8).blk t).view.emb (ix2 a b)) = _
  refine congrArg _ (funext fun ax => Fin.ext ?_)
  match ax with
  | ⟨0, _⟩ => show win0_8.index t (0 : Fin 2) * 1 + 1 * a.val = a.val; omega
  | ⟨1, _⟩ => show win0_8.index t (1 : Fin 2) * 2 + 1 * b.val = b.val; omega

/-! ## What a point writes back -/

/-- Entry `j` of the body's result over blocks of literal shape, the row and column read off `j`. -/
theorem body_at (x0 : FVec Ideal S512x256 .f32) (x1 : FVec Ideal S256x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x2 .bf16) (x8 : FVec Ideal S1x2 .f32) (j : S512x2.Idx) :
    k0_pay1 (F := Ideal) (k0_pay2 (F := Ideal) x0 x1 x2 x3 x4 x5 x6) (Scalar.ofBits .f32 0x00000000#32) x7 x8 j
      = logits (fun f => x0 (ix2 (j 0) f)) (fun s => x2 (ix2 (0 : Fin 1) s)) (fun s f => x1 (ix2 f s))
          (fun o s => x3 (ix2 s o)) (fun o => x4 (ix2 (0 : Fin 1) o)) (fun o s => x5 (ix2 s o)) (fun o => x6 (ix2 (0 : Fin 1) o))
          (fun k s => x7 (ix2 s k)) (fun k => x8 (ix2 (0 : Fin 1) k)) (j 1) := by
  obtain ⟨p, k, rfl⟩ : ∃ (p : Fin 512) (k : Fin 2), j = ix2 p k := ⟨j 0, j 1, eq_ix2 j⟩
  exact Body.body_apply x0 x1 x2 x3 x4 x5 x6 x7 x8 p k

/-- Equal rows, norms, weights, biases and column give equal logits. -/
theorem logits_congr {r r' : Fin 256 → EReal} {n2 n2' : Fin 1024 → EReal} {sv sv' : Fin 1024 → Fin 256 → EReal}
    {W1 W1' : Fin 1024 → Fin 1024 → EReal} {b1 b1' : Fin 1024 → EReal} {W2 W2' : Fin 1024 → Fin 1024 → EReal} {b2 b2' : Fin 1024 → EReal}
    {Wh Wh' : Fin 2 → Fin 1024 → EReal} {bh bh' : Fin 2 → EReal} {k k' : Fin 2}
    (hr : r = r') (hn : n2 = n2') (hs : sv = sv') (h1 : W1 = W1') (hb1 : b1 = b1') (h2 : W2 = W2') (hb2 : b2 = b2')
    (hh : Wh = Wh') (hbh : bh = bh') (hk : k = k') :
    logits r n2 sv W1 b1 W2 b2 Wh bh k = logits r' n2' sv' W1' b1' W2' b2' Wh' bh' k' := by
  subst hr hn hs h1 hb1 h2 hb2 hh hbh hk; rfl

/-- WHAT POINT `t` WRITES BACK is block `t` of the specification. -/
theorem flushed_eq (c : Dev nD) (t : Fin cfg0.N) :
    (dats m 0 c).flushed 9 t = ((cfg0.win 9).blk t).view.read (Elt Ideal) (spec m c) := by
  rw [Value.flushed9]
  unfold out0_9
  rw [View.canon_unit_zero hz]
  simp only [View.ld_unit_zero (S := S512x256) hz, View.ld_unit_zero (S := S256x1024) hz, View.ld_unit_zero (S := S1x1024) hz,
    View.ld_unit_zero (S := S1024x1024) hz, View.ld_unit_zero (S := S1024x2) hz, View.ld_unit_zero (S := S1x2) hz]
  obtain ⟨-, -, e90, e91⟩ := moving_facts t
  have hN : t.val < 128 := Nat.lt_of_lt_of_eq t.isLt (show cfg0.N = 128 from N_0)
  funext j
  refine (body_at (iblk m c 0 t) (iblk m c 1 t) (iblk m c 2 t) (iblk m c 3 t) (iblk m c 4 t) (iblk m c 5 t) (iblk m c 6 t)
    (iblk m c 7 t) (iblk m c 8 t) j).trans ?_
  show _ = spec m c (((cfg0.win 9).blk t).view.emb j)
  have hj0 : (j 0).val < 512 := (j 0).isLt
  have hrow : ((((cfg0.win 9).blk t).view.emb j) 0).val = t.val * 512 + (j 0).val := by
    show win0_9.index t (0 : Fin 2) * 512 + 1 * (j 0).val = _; omega
  have hcol : ((((cfg0.win 9).blk t).view.emb j) 1).val = (j 1).val := by
    show win0_9.index t (1 : Fin 2) * 2 + 1 * (j 1).val = _; omega
  refine logits_congr
    (funext fun f => blk0 m c t (j 0) f _ hrow)
    (funext fun s => (blk2 m c t 0 s).trans (Staged.n2_apply m c s))
    (funext fun s => funext fun f => (blk1 m c t f s).trans (Staged.svT_apply m c f s))
    (funext fun o => funext fun s => (blk3 m c t s o).trans (Staged.W1T_apply m c s o))
    (funext fun o => (blk4 m c t 0 o).trans (Staged.b1_apply m c o))
    (funext fun o => funext fun s => (blk5 m c t s o).trans (Staged.W2T_apply m c s o))
    (funext fun o => (blk6 m c t 0 o).trans (Staged.b2_apply m c o))
    (funext fun k => funext fun s => (blk7 m c t s k).trans (Staged.WhT_apply m c s k))
    (funext fun k => (blk8 m c t 0 k).trans (Staged.bh_apply m c k))
    (Fin.ext hcol.symm)

/-! ## The cover, and the array after the run -/

/-- An index of the result array is in point `t`'s block iff each coordinate is in the block's range on its axis. -/
theorem mem_blk (t : Fin cfg0.N) (i : S65536x2.Idx) :
    i ∈ ((cfg0.win 9).blk t).view.set ↔ ∀ a : Fin 2, win0_9.index t a * S512x2.size a ≤ (i a).val ∧ (i a).val < win0_9.index t a * S512x2.size a + S512x2.size a := by
  show i ∈ ((View.whole main_v14).slice (win0_9.rect t)).set ↔ _
  rw [View.set_slice_whole, Rect.mem_set_unit]
  exact Iff.rfl

/-- Row `r` of the result is written by point `r / 512`. -/
theorem cover (i : S65536x2.Idx) : ∃ t : Fin cfg0.N, (cfg0.win 9).flush t = true ∧ i ∈ ((cfg0.win 9).blk t).view.set := by
  have hi0 : (i 0).val < 65536 := (i 0).isLt
  have hi1 : (i 1).val < 2 := (i 1).isLt
  have hN : cfg0.N = 128 := N_0
  let t : Fin cfg0.N := ⟨(i 0).val / 512, by rw [hN]; omega⟩
  obtain ⟨-, -, e90, e91⟩ := moving_facts t
  have ht : t.val = (i 0).val / 512 := rfl
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 2 ≤ (i 1).val ∧ (i 1).val < win0_9.index t (1 : Fin 2) * 2 + 2; omega

/-- THE ARRAY after the run is the specification of the arguments. -/
theorem final (c : Dev nD) : (dats m 0 c).arrAt 9 cfg0.N = spec m c :=
  (dats m 0 c).arrAt_eq_of_cover 9 (spec m c) (fun t _ => flushed_eq m c t) cover

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v14) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference's result, entry by entry, is the specification.

  The generated reading of the reference gives every operation at an index from its operands at an index. Chained, the
  reference's radial stage at `(b, s)` is `exp (−γ · ((0 + ‖x_b‖²) + (0 + ‖sv_s‖²) − 2 · ⟨x_b, sv_s⟩))`: its two sums start
  from the zero word, which is the extended real `0`, so they are the plain sums; each `dot_general` contracts the second
  axis of both operands, which is the output-major reading of a weight matrix that `RbfMlp.dense` uses; the private
  function `relu` is the maximum with the splat of the zero word. The index functions the reading composes are, at an
  index given by its coordinates, the coordinates themselves (checked axis by axis).
-/
import proofs.«180085_j65481071405965_1_alg».proof.Proof.Gen.ReferenceIdeal.Read
import proofs.«180085_j65481071405965_1_alg».proof.Proof.Mlp

noncomputable section

namespace Cert.ReferenceIdeal.RefValue

open Cert.ReferenceIdeal Cert.ReferenceIdeal.Gen Cert.ReferenceIdeal.Read Idealize.ShloMosaic Idealize.ShloMosaic.ValueIdx Cert.RbfMlp

variable (x0 : (⟨S65536x256, .f32⟩ : BufTy).Contents (Elt Ideal)) (x1 : (⟨S1024x256, .f32⟩ : BufTy).Contents (Elt Ideal)) (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal)) (x6 : (⟨S2x1024, .f32⟩ : BufTy).Contents (Elt Ideal)) (x7 : (⟨S2, .f32⟩ : BufTy).Contents (Elt Ideal))

/-! ## The composed index functions at an index given by coordinates -/

theorem idx_rowNorm (b : Fin 65536) (s : Fin 1024) (k : Fin 256) :
    idx_main_v1 (idx_main_v2 (idx_main_v6 (ix2 b s))) k = ix2 b k :=
  funext fun a => Fin.ext (by match a with | ⟨0, _⟩ => rfl | ⟨1, _⟩ => rfl)
theorem idx_svNorm (b : Fin 65536) (s : Fin 1024) (k : Fin 256) :
    idx_main_v4 (idx_main_v5 (idx_main_v7 (ix2 b s))) k = ix2 s k :=
  funext fun a => Fin.ext (by match a with | ⟨0, _⟩ => rfl | ⟨1, _⟩ => rfl)
theorem lidx_cross (b : Fin 65536) (s : Fin 1024) (k : Fin 256) : lidx_main_v9 (ix2 b s) k = ix2 b k :=
  funext fun a => Fin.ext (by match a with | ⟨0, _⟩ => rfl | ⟨1, _⟩ => rfl)
theorem ridx_cross (b : Fin 65536) (s : Fin 1024) (k : Fin 256) : ridx_main_v9 (ix2 b s) k = ix2 s k :=
  funext fun a => Fin.ext (by match a with | ⟨0, _⟩ => rfl | ⟨1, _⟩ => rfl)
theorem lidx_layer1 (b : Fin 65536) (o : Fin 1024) (k : Fin 1024) : lidx_main_v16 (ix2 b o) k = ix2 b k :=
  funext fun a => Fin.ext (by match a with | ⟨0, _⟩ => rfl | ⟨1, _⟩ => rfl)
theorem ridx_layer1 (b : Fin 65536) (o : Fin 1024) (k : Fin 1024) : ridx_main_v16 (ix2 b o) k = ix2 o k :=
  funext fun a => Fin.ext (by match a with | ⟨0, _⟩ => rfl | ⟨1, _⟩ => rfl)
theorem idx_bias1 (b : Fin 65536) (o : Fin 1024) : idx_main_v17 (idx_main_v18 (ix2 b o)) = ix1 o :=
  funext fun a => Fin.ext (by match a with | ⟨0, _⟩ => rfl)
theorem lidx_layer2 (b : Fin 65536) (o : Fin 1024) (k : Fin 1024) : lidx_main_v21 (ix2 b o) k = ix2 b k :=
  funext fun a => Fin.ext (by match a with | ⟨0, _⟩ => rfl | ⟨1, _⟩ => rfl)
theorem ridx_layer2 (b : Fin 65536) (o : Fin 1024) (k : Fin 1024) : ridx_main_v21 (ix2 b o) k = ix2 o k :=
  funext fun a => Fin.ext (by match a with | ⟨0, _⟩ => rfl | ⟨1, _⟩ => rfl)
theorem idx_bias2 (b : Fin 65536) (o : Fin 1024) : idx_main_v22 (idx_main_v23 (ix2 b o)) = ix1 o :=
  funext fun a => Fin.ext (by match a with | ⟨0, _⟩ => rfl)
theorem lidx_head (b : Fin 65536) (c : Fin 2) (k : Fin 1024) : lidx_main_v26 (ix2 b c) k = ix2 b k :=
  funext fun a => Fin.ext (by match a with | ⟨0, _⟩ => rfl | ⟨1, _⟩ => rfl)
theorem ridx_head (b : Fin 65536) (c : Fin 2) (k : Fin 1024) : ridx_main_v26 (ix2 b c) k = ix2 c k :=
  funext fun a => Fin.ext (by match a with | ⟨0, _⟩ => rfl | ⟨1, _⟩ => rfl)
theorem idx_biasHead (b : Fin 65536) (c : Fin 2) : idx_main_v27 (idx_main_v28 (ix2 b c)) = ix1 c :=
  funext fun a => Fin.ext (by match a with | ⟨0, _⟩ => rfl)

/-! ## The stages at an entry -/

/-- The reference's radial feature of row `b` against support vector `s`. -/
theorem radial_apply (b : Fin 65536) (s : Fin 1024) :
    val_main_v15 (F := Ideal) x0 x1 (ix2 b s)
      = feat (fun f => x0 (ix2 b f)) (fun s => sqNorm fun f => x1 (ix2 s f)) (fun s f => x1 (ix2 s f)) s := by
  rw [val_main_v15_apply, val_main_v14_apply, val_main_v13_apply, val_main_cst_2_apply, val_main_v12_apply,
    val_main_v8_apply, val_main_v6_apply, val_main_v2_apply, val_main_v1_apply, val_main_cst_apply,
    val_main_v7_apply, val_main_v5_apply, val_main_v4_apply, val_main_cst_0_apply,
    val_main_v11_apply, val_main_v10_apply, val_main_cst_1_apply, val_main_v9_apply]
  simp only [val_main_v0_apply, val_main_v3_apply, idx_rowNorm, idx_svNorm, lidx_cross, ridx_cross,
    Ideal.hostUnary_exp_def, Ideal.mulf_def, Ideal.subf_def, Ideal.addf_def, Ideal.ofBits_def]
  unfold feat sqNorm rowDot
  rw [zeroWord_add, zeroWord_add]

/-- The reference's first hidden layer at `(b, o)`, over its radial stage. -/
theorem layer1_apply (b : Fin 65536) (o : Fin 1024) :
    val_main_v20 (F := Ideal) x0 x1 x2 x3 (ix2 b o)
      = hiddenLayer (fun s => val_main_v15 (F := Ideal) x0 x1 (ix2 b s)) (fun o s => x2 (ix2 o s)) (fun o => x3 (ix1 o)) o := by
  rw [val_main_v20_apply, val_main_v19_apply, val_main_v16_apply, val_main_v18_apply, val_main_v17_apply,
    val_main_call0_v0_apply, val_main_call0_cst_apply]
  simp only [lidx_layer1, ridx_layer1, idx_bias1, Ideal.maximumf_def, Ideal.addf_def, Ideal.ofBits_def]
  rfl

/-- The reference's second hidden layer at `(b, o)`, over the first. -/
theorem layer2_apply (b : Fin 65536) (o : Fin 1024) :
    val_main_v25 (F := Ideal) x0 x1 x2 x3 x4 x5 (ix2 b o)
      = hiddenLayer (fun s => val_main_v20 (F := Ideal) x0 x1 x2 x3 (ix2 b s)) (fun o s => x4 (ix2 o s)) (fun o => x5 (ix1 o)) o := by
  rw [val_main_v25_apply, val_main_v24_apply, val_main_v21_apply, val_main_v23_apply, val_main_v22_apply,
    val_main_call1_v0_apply, val_main_call1_cst_apply]
  simp only [lidx_layer2, ridx_layer2, idx_bias2, Ideal.maximumf_def, Ideal.addf_def, Ideal.ofBits_def]
  rfl

/-- The reference's head at `(b, c)`, over the second hidden layer. -/
theorem head_apply (b : Fin 65536) (c : Fin 2) :
    val_main_v29 (F := Ideal) x0 x1 x2 x3 x4 x5 x6 x7 (ix2 b c)
      = dense (fun s => val_main_v25 (F := Ideal) x0 x1 x2 x3 x4 x5 (ix2 b s)) (fun c s => x6 (ix2 c s)) (fun c => x7 (ix1 c)) c := by
  rw [val_main_v29_apply, val_main_v26_apply, val_main_v28_apply, val_main_v27_apply]
  simp only [lidx_head, ridx_head, idx_biasHead, Ideal.addf_def]
  rfl

/-- The reference's result array is the specification's. -/
theorem result_eq : val_main_v29 (F := Ideal) x0 x1 x2 x3 x4 x5 x6 x7 = result x0 x1 x2 x3 x4 x5 x6 x7 := by
  funext i
  obtain ⟨b, c, rfl⟩ : ∃ (b : Fin 65536) (c : Fin 2), i = ix2 b c := ⟨i 0, i 1, eq_ix2 i⟩
  rw [head_apply]
  simp only [layer2_apply, layer1_apply, radial_apply]
  rfl

end Cert.ReferenceIdeal.RefValue

end
-- ==== Proof.lean ====
/-
  A fused radial-basis classifier against its plain reference, over the extended reals.

  The kernel walks the batch of 65536 rows in 128 blocks of 512. For each row `x_b` it forms the squared distances to
  the 1024 support vectors as `‖x_b‖² + ‖sv_s‖² − 2·⟨x_b, sv_s⟩`, the radial features `exp (−(1/256) · distance)`, two
  dense layers each followed by the maximum with zero, and a two-column head. The weights reach it transposed and in a
  16-bit format, the biases as one-row matrices and the `‖sv_s‖²` as a row computed before the launch; the reference
  computes the same expression on whole arrays with `dot_general` contracting the second axis of both operands. On the
  extended reals a change of float format is the identity and a matrix product is the finite sum of the products over
  the contraction coordinate, so both programs compute `RbfMlp.result`: the same operations in the same order on the
  same words, the sums indexed differently. No algebraic law beyond `0 + a = a` is used (the sums of squares start from
  the zero word), so the finiteness of the inputs is never opened.

  `Mlp` states the function; `Body` reads the kernel body on a block, `Staged` what the launch stages, `Whole` the
  result array after all 128 points; `RefValue` reads the reference. The three frames are the generated frame runs
  (the reference's from its run), and the idealization rewrote nothing.
-/
import proofs.«180085_j65481071405965_1_alg».proof.Defs
import proofs.«180085_j65481071405965_1_alg».proof.Proof.Gen.Kernel
import proofs.«180085_j65481071405965_1_alg».proof.Proof.Gen.Kernel.Skeleton
import proofs.«180085_j65481071405965_1_alg».proof.Proof.Gen.Kernel.Launch
import proofs.«180085_j65481071405965_1_alg».proof.Proof.Gen.Kernel.Points
import proofs.«180085_j65481071405965_1_alg».proof.Proof.Gen.Kernel.Frame
import proofs.«180085_j65481071405965_1_alg».proof.Proof.Gen.KernelIdeal
import proofs.«180085_j65481071405965_1_alg».proof.Proof.Gen.KernelIdeal.Skeleton
import proofs.«180085_j65481071405965_1_alg».proof.Proof.Gen.KernelIdeal.Launch
import proofs.«180085_j65481071405965_1_alg».proof.Proof.Gen.KernelIdeal.Points
import proofs.«180085_j65481071405965_1_alg».proof.Proof.Gen.KernelIdeal.Frame
import proofs.«180085_j65481071405965_1_alg».proof.Proof.Gen.ReferenceIdeal
import proofs.«180085_j65481071405965_1_alg».proof.Proof.Gen.Pre_finite_inputs
import proofs.«180085_j65481071405965_1_alg».proof.Proof.Gen.KernelIdeal.Value
import proofs.«180085_j65481071405965_1_alg».proof.Proof.Gen.ReferenceIdeal.Run
import proofs.«180085_j65481071405965_1_alg».proof.Proof.Gen.ReferenceIdeal.Read
import proofs.«180085_j65481071405965_1_alg».proof.Proof.Whole
import proofs.«180085_j65481071405965_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result array at `RbfMlp.result` of the
    arguments: the kernel block by block (`Whole.run`), the reference operation by operation (`RefValue.result_eq`). -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v29_eq, Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
